-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_v13 : IVec S_ 1) (main_v16 : IVec S4096x4096 1) : IVec S_ 1 :=
  let main_c_5 : IVec S_ 1 := constantI S_ 1 1#1
  let main_v17 : IVec S_ 1 := (fun x v => Host.reduce IntOp.andi x v reducesTo_S4096x4096_S_d0_1 h_S_) main_v16 main_c_5
  let main_v18 : IVec S_ 1 := andi main_v13 main_v17
  main_v18

def fn {F : FTy → Type} [FloatOps F] (main_arg0 : FVec F S4x2048x4096 .f32) (main_arg1 : FVec F S4096x4096 .f32) (main_arg2 : FVec F S4096 .f32) (main_arg3 : FVec F S4096x4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096x4096 .f32 := Host.absf main_arg3
  let main_cst_4 : FVec F S_ .f32 := constant S_ .f32 0x7F800000#32
  let main_v15 : FVec F S4096x4096 .f32 := broadcastInDim S4096x4096 ![] bcast_S_S4096x4096 main_cst_4
  let main_v16 : IVec S4096x4096 1 := cmpf .olt main_v14 main_v15
  fn_part1 (F := F) main_v13 main_v16
-- ==== Kernel.lean ====
abbrev S4x2048x4096 : Shape := ⟨3, ![4, 2048, 4096]⟩
abbrev S4096x4096 : Shape := ⟨2, ![4096, 4096]⟩
abbrev S4096 : Shape := ⟨1, ![4096]⟩
abbrev S8192x4096 : Shape := ⟨2, ![8192, 4096]⟩
abbrev S1x4096 : Shape := ⟨2, ![1, 4096]⟩
abbrev S512x4096 : Shape := ⟨2, ![512, 4096]⟩
abbrev S4096x1024 : Shape := ⟨2, ![4096, 1024]⟩
abbrev S512x1024 : Shape := ⟨2, ![512, 1024]⟩
abbrev S1024x4096 : Shape := ⟨2, ![1024, 4096]⟩
abbrev S1x1024 : Shape := ⟨2, ![1, 1024]⟩

abbrev nBuf : Space → Nat
  | .hbm => 12
  | .vmem => 14
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S4096x4096, .f32⟩
  | .hbm, ⟨4, _⟩ => ⟨S8192x4096, .f32⟩
  | .hbm, ⟨5, _⟩ => ⟨S8192x4096, .bf16⟩
  | .hbm, ⟨6, _⟩ => ⟨S4096x4096, .bf16⟩
  | .hbm, ⟨7, _⟩ => ⟨S4096x4096, .bf16⟩
  | .hbm, ⟨8, _⟩ => ⟨S1x4096, .f32⟩
  | .hbm, ⟨9, _⟩ => ⟨S8192x4096, .bf16⟩
  | .hbm, ⟨10, _⟩ => ⟨S8192x4096, .f32⟩
  | .hbm, ⟨11, _⟩ => ⟨S4x2048x4096, .f32⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S4096x1024, .bf16⟩
  | .local _ .vmem, ⟨4, _⟩ => ⟨S512x1024, .bf16⟩
  | .local _ .vmem, ⟨5, _⟩ => ⟨S512x1024, .bf16⟩
  | .local _ .vmem, ⟨6, _⟩ => ⟨S512x4096, .bf16⟩
  | .local _ .vmem, ⟨7, _⟩ => ⟨S512x4096, .bf16⟩
  | .local _ .vmem, ⟨8, _⟩ => ⟨S1024x4096, .bf16⟩
  | .local _ .vmem, ⟨9, _⟩ => ⟨S1024x4096, .bf16⟩
  | .local _ .vmem, ⟨10, _⟩ => ⟨S1x1024, .f32⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![16, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S512x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x4096 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S512x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  shapeCasts_S4x2048x4096_S8192x4096 : S4x2048x4096.ShapeCasts S8192x4096
  bitsLt_bf16_f32 : FTy.bits .bf16 < FTy.bits .f32
  shapeCasts_S4096_S1x4096 : S4096.ShapeCasts S1x4096
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  inb_S512x1024_S512x1024_0_0 : ∀ a, (![0, 0] : Fin 2 → Nat) a + S512x1024.size a ≤ S512x1024.size a
  h_S512x1024 : 0 < S512x1024.numel
  packedbf16_S512x1024_S512x1024_0_0 : (Rect.unit (s := S512x1024) ![0, 0] S512x1024.size inb_S512x1024_S512x1024_0_0).PackedRows (EltTy.packing .bf16)
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  shapeCasts_S8192x4096_S4x2048x4096 : S8192x4096.ShapeCasts S4x2048x4096
  dot_S512x4096_S4096x1024_S512x1024_1_0_0_1_n_n_wf : DotDims.WF S512x4096 S4096x1024 S512x1024 [1] [0] [0] [1] [] []
  dot_S512x4096_S1024x4096_S512x1024_1_1_0_0_n_n_wf : DotDims.WF S512x4096 S1024x4096 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .bf16 = 32 ∨ (Rect.block (s := S8192x4096) S512x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x1024.size a ≤ S4096x4096.size a
  hwx0_1 : ∀ i : grid0.Coords, EltTy.bits .bf16 = 32 ∨ (Rect.block (s := S4096x4096) S4096x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S8192x4096.size a
  hwx0_2 : ∀ i : grid0.Coords, EltTy.bits .bf16 = 32 ∨ (Rect.block (s := S8192x4096) S512x1024.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x4096.size a ≤ S8192x4096.size a
  hwx1_0 : ∀ i : grid1.Coords, EltTy.bits .bf16 = 32 ∨ (Rect.block (s := S8192x4096) S512x4096.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x4096.size a ≤ S4096x4096.size a
  hwx1_1 : ∀ i : grid1.Coords, EltTy.bits .bf16 = 32 ∨ (Rect.block (s := S4096x4096) S1024x4096.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x4096.size a
  hwx1_2 : ∀ i : grid1.Coords, EltTy.bits .f32 = 32 ∨ (Rect.block (s := S1x4096) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x1024.size a ≤ S8192x4096.size a
  hwx1_3 : ∀ i : grid1.Coords, EltTy.bits .f32 = 32 ∨ (Rect.block (s := S8192x4096) S512x1024.size (cc1_transform_3 i) (hinb1_3 i)).WholeWords (EltTy.packing .f32)

variable [Facts₀]

def dot_S512x4096_S4096x1024_S512x1024_1_0_0_1_n_n : DotDims S512x4096 S4096x1024 S512x1024 where
  lhsContracting := [1]
  rhsContracting := [0]
  lhsNonContracting := [0]
  rhsNonContracting := [1]
  lhsBatch := []
  rhsBatch := []
  wf := dot_S512x4096_S4096x1024_S512x1024_1_0_0_1_n_n_wf
def dot_S512x4096_S1024x4096_S512x1024_1_1_0_0_n_n : DotDims S512x4096 S1024x4096 S512x1024 where
  lhsContracting := [1]
  rhsContracting := [1]
  lhsNonContracting := [0]
  rhsNonContracting := [0]
  lhsBatch := []
  rhsBatch := []
  wf := dot_S512x4096_S1024x4096_S512x1024_1_1_0_0_n_n_wf

abbrev win0_0 : Pipeline.Window sig grid0 :=
  Pipeline.Window.ofSpec (Memref.whole main_v1) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S4096x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S512x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v5) S512x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S1024x4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v6) S512x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S4096 : Shape := ⟨1, ![4096]⟩
abbrev S1x1x4096 : Shape := ⟨3, ![1, 1, 4096]⟩

abbrev nBuf : Space → Nat
  | .hbm => 9
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S4096x4096, .f32⟩
  | .hbm, ⟨4, _⟩ => ⟨S4x2048x4096, .f32⟩
  | .hbm, ⟨5, _⟩ => ⟨S4x2048x4096, .f32⟩
  | .hbm, ⟨6, _⟩ => ⟨S1x1x4096, .f32⟩
  | .hbm, ⟨7, _⟩ => ⟨S4x2048x4096, .f32⟩
  | .hbm, ⟨8, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]

class Facts₀ : Prop where
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  dot_S4x2048x4096_S4096x4096_S4x2048x4096_2_0_01_1_n_n_wf : DotDims.WF S4x2048x4096 S4096x4096 S4x2048x4096 [2] [0] [0, 1] [1] [] []
  dot_S4x2048x4096_S4096x4096_S4x2048x4096_2_1_01_0_n_n_wf : DotDims.WF S4x2048x4096 S4096x4096 S4x2048x4096 [2] [1] [0, 1] [0] [] []

variable [Facts₀]

def dot_S4x2048x4096_S4096x4096_S4x2048x4096_2_0_01_1_n_n : DotDims S4x2048x4096 S4096x4096 S4x2048x4096 where
  lhsContracting := [2]
  rhsContracting := [0]
  lhsNonContracting := [0, 1]
  rhsNonContracting := [1]
  lhsBatch := []
  rhsBatch := []
  wf := dot_S4x2048x4096_S4096x4096_S4x2048x4096_2_0_01_1_n_n_wf
def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.Spec.lean ====
/-
  The function both programs compute, over the extended reals.

  The activations x [4, 2048, 4096] are rotated by the matrix h [4096, 4096] along their last axis and then sent through
  a linear layer with weight w [4096 (out), 4096 (in)] and bias b [4096]:

      out (p, s, o) = (sum over e of (sum over d of x (p, s, d) * h (d, e)) * w (o, e)) + b (o).

  One program works on the activations flattened to 8192 rows (row p * 2048 + s), in two steps: the rotation
  `rotated`, a product of the flattened activations with h, and the projection `projected`, a product with the
  transposed weight plus the bias carried as a one-row array. Reading the flattening, the two steps and the
  unflattening at an index gives the formula above, with the same order of multiplications and the same sums, so no
  finiteness of the entries is needed.
-/
import Idealize.ShloMosaic.Lib.ValueIdx
import Idealize.ShloMosaic.Lib.Pipeline.Value
import Idealize.ShloMosaic.PureOps.Ideal.Laws

noncomputable section

namespace Cert.RotateLinear

open Idealize.ShloMosaic Idealize.ShloMosaic.ValueIdx

/-- The activations, batch by sequence by feature. -/
abbrev Act3 : Shape := ⟨3, ![4, 2048, 4096]⟩
/-- The activations with batch and sequence flattened into 8192 rows. -/
abbrev Act2 : Shape := ⟨2, ![8192, 4096]⟩
/-- A square matrix over the features: the rotation, or the weight. -/
abbrev Mat : Shape := ⟨2, ![4096, 4096]⟩
/-- The bias as a vector, and as a one-row array. -/
abbrev Bias1 : Shape := ⟨1, ![4096]⟩
abbrev Bias2 : Shape := ⟨2, ![1, 4096]⟩

/-- The rotation: row r of the flattened activations times the matrix h. -/
def rotated (xf : Act2.Idx → EReal) (h : Mat.Idx → EReal) : Act2.Idx → EReal :=
  fun i => ∑ d : Fin 4096, xf (ix2 (i 0) d) * h (ix2 d (i 1))

/-- The projection: row r of the rotated activations against row o of the weight, plus the bias at o. -/
def projected (xr : Act2.Idx → EReal) (w : Mat.Idx → EReal) (b : Bias2.Idx → EReal) : Act2.Idx → EReal :=
  fun i => (∑ e : Fin 4096, xr (ix2 (i 0) e) * w (ix2 (i 1) e)) + b (ix2 0 (i 1))

/-- The whole layer at a batch, a position and an output feature. -/
def rotateLinear (x : Act3.Idx → EReal) (w h : Mat.Idx → EReal) (b : Bias1.Idx → EReal) : Act3.Idx → EReal :=
  fun i => (∑ e : Fin 4096, (∑ d : Fin 4096, x (ix3 (i 0) (i 1) d) * h (ix2 d e)) * w (ix2 (i 2) e)) + b (ix1 (i 2))

/-- The flattened activations at row p * 2048 + s are the activations at batch p and position s. -/
theorem flatten_apply (x : Act3.Idx → EReal) (hc : Act3.ShapeCasts Act2) (p : Fin 4) (s : Fin 2048) (d : Fin 4096)
    (hr : p.val * 2048 + s.val < 8192) :
    shapeCast Act2 x hc (ix2 ⟨p.val * 2048 + s.val, hr⟩ d) = x (ix3 p s d) :=
  shapeCast_apply x hc _ _ (by
    rw [Shape.rowMajor_val_two, Shape.rowMajor_val_three]
    show (p.val * 2048 + s.val) * 4096 + d.val = (p.val * 2048 + s.val) * 4096 + d.val
    rfl)

/-- The bias as a one-row array, at column o, is the bias at o. -/
theorem bias_row_apply (b : Bias1.Idx → EReal) (hc : Bias1.ShapeCasts Bias2) (o : Fin 4096) :
    shapeCast Bias2 b hc (ix2 0 o) = b (ix1 o) :=
  shapeCast_apply b hc _ _ (by
    rw [Shape.rowMajor_val_one, Shape.rowMajor_val_two]
    show o.val = 0 * 4096 + o.val
    omega)

/-- Flattening, rotating, projecting and unflattening is the layer. -/
theorem unflatten_projected_rotated (x : Act3.Idx → EReal) (w h : Mat.Idx → EReal) (b : Bias1.Idx → EReal)
    (hx : Act3.ShapeCasts Act2) (hb : Bias1.ShapeCasts Bias2) (ho : Act2.ShapeCasts Act3) :
    shapeCast Act3 (projected (rotated (shapeCast Act2 x hx) h) w (shapeCast Bias2 b hb)) ho = rotateLinear x w h b := by
  funext i
  have h0 : (i 0).val < 4 := (i 0).isLt
  have h1 : (i 1).val < 2048 := (i 1).isLt
  have h2 : (i 2).val < 4096 := (i 2).isLt
  have hr : (i 0).val * 2048 + (i 1).val < 8192 := by omega
  refine (shapeCast_apply _ ho i (ix2 ⟨(i 0).val * 2048 + (i 1).val, hr⟩ ⟨(i 2).val, h2⟩) (by
    rw [Shape.rowMajor_val_two, Shape.rowMajor_val_three]
    show ((i 0).val * 2048 + (i 1).val) * 4096 + (i 2).val = ((i 0).val * 2048 + (i 1).val) * 4096 + (i 2).val
    rfl)).trans ?_
  show (∑ e : Fin 4096, rotated (shapeCast Act2 x hx) h (ix2 ⟨(i 0).val * 2048 + (i 1).val, hr⟩ e) * w (ix2 ⟨(i 2).val, h2⟩ e))
      + shapeCast Bias2 b hb (ix2 0 ⟨(i 2).val, h2⟩)
    = (∑ e : Fin 4096, (∑ d : Fin 4096, x (ix3 (i 0) (i 1) d) * h (ix2 d e)) * w (ix2 (i 2) e)) + b (ix1 (i 2))
  rw [bias_row_apply]
  refine congrArg (· + b (ix1 (i 2))) (Finset.sum_congr rfl fun e _ => congrArg (· * w (ix2 (i 2) e)) ?_)
  show (∑ d : Fin 4096, shapeCast Act2 x hx (ix2 ⟨(i 0).val * 2048 + (i 1).val, hr⟩ d) * h (ix2 d e)) = _
  refine Finset.sum_congr rfl fun d _ => ?_
  rw [flatten_apply x hx ⟨(i 0).val, h0⟩ ⟨(i 1).val, h1⟩ d hr]
  rfl

end Cert.RotateLinear

end
-- ==== Proof.LibPlainMatmul.lean ====
/-
  A plain matrix product [M, K] x [K, N] into the zero accumulator, read at an entry, over the extended reals.

  With dimension numbers "contract the left operand's axis 1 with the right operand's axis 0, no batch axes"
  (`DotDims.plain M K N`) the product's entry (r, c) is the sum over k of a (r, k) * b (k, c): the left operand is read at
  the output's row and the contraction coordinate, the right one at the contraction coordinate and the output's column.
  Stated at any extents, with indices written by their coordinates.
-/
import Idealize.ShloMosaic.Lib.ValueIdx
import Idealize.ShloMosaic.PureOps.Ideal.Laws

noncomputable section

namespace Cert.PlainMatmul

open Idealize.ShloMosaic Idealize.ShloMosaic.ValueIdx

variable {M K N : ℕ}

/-- The left operand's row coordinate is the output's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction coordinate. -/
theorem lhs_col (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

/-- The right operand's row coordinate is the contraction coordinate. -/
theorem rhs_row (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

/-- The right operand's column coordinate is the output's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- Entry (r, c) of the product into the zero accumulator is the sum over k of a (r, k) * b (k, c). -/
theorem apply (prec : Option ContractPrecision) {φ₁ φ₂ : FTy} (a : FVec Ideal ⟨2, ![M, K]⟩ φ₁) (b : FVec Ideal ⟨2, ![K, N]⟩ φ₂)
    (r : Fin M) (c : Fin N) :
    FloatOps.matmul (DotDims.plain M K N) prec a b (constant ⟨2, ![M, N]⟩ .f32 0x00000000#32) (ix2 r c)
      = ∑ k : Fin K, a (ix2 r k) * b (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun x => Fin.ext (by
      match x with
      | ⟨0, _⟩ => exact lhs_row _ _
      | ⟨1, _⟩ => exact (lhs_col _ _).trans hk)
  have er : (DotDims.plain M K N).rhsIdx (ix2 r c) ((contrEquiv1 (DotDims.plain M K N) K rfl rfl).symm k) = ix2 k c :=
    funext fun x => Fin.ext (by
      match x with
      | ⟨0, _⟩ => exact (rhs_row _ _).trans hk
      | ⟨1, _⟩ => exact rhs_col _ _)
  rw [el, er]

end Cert.PlainMatmul

end
-- ==== Proof.RotRegion.lean ====
/-
  The first kernel region: the rotation.

  At grid point t = (a, b) the body multiplies a block of 512 rows of the flattened activations (all 4096 features) by
  a block of 1024 columns of the rotation matrix (all 4096 rows) into the zero accumulator, and writes the 512 x 1024
  product back as block (a, b) of the output. Entry (p, q) of the product is the sum over k of the activation entry
  (512 a + p, k) times the matrix entry (k, 1024 b + q): block (a, b) of the whole-array function `rotated`. The 16 x 4
  output blocks tile the 8192 x 4096 output, so after the region the output array is `rotated` of the two input arrays as
  the region found them.
-/
import proofs.«172820_j88897233092672_1_alg».proof.Proof.Gen.KernelIdeal.Frame
import proofs.«172820_j88897233092672_1_alg».proof.Proof.Spec
import proofs.«172820_j88897233092672_1_alg».proof.Proof.LibPlainMatmul
import Idealize.ShloMosaic.Lib.Pipeline.Value

set_option maxRecDepth 16384

noncomputable section

namespace Cert.KernelIdeal.RotRegion

open Cert.KernelIdeal Cert.KernelIdeal.Gen Idealize.ShloMosaic Idealize.ShloMosaic.TcCoe Idealize.ShloMosaic.ValueIdx
open Idealize.SL.Sem Cert.RotateLinear
open Idealize.ShloMosaic.Pipeline (Dat)

/-- The body's product at entry (p, q): the sum over k of the left block's (p, k) times the right block's (k, q). The
    casts of the blocks to their own shapes and the change of float format of the product are the identity. -/
theorem product_entry (x0 : Vec Ideal S512x4096 .bf16) (x1 : Vec Ideal S4096x1024 .bf16) (p : Fin 512) (q : Fin 1024) :
    k0_pay1 (F := Ideal) x0 x1 (ix2 p q) = ∑ k : Fin 4096, x0 (ix2 p k) * x1 (ix2 k q) := by
  unfold k0_pay1
  rw [shapeCast_self, shapeCast_self]
  exact Cert.PlainMatmul.apply none (φ₁ := .bf16) (φ₂ := .bf16) x0 x1 p q

/-- The same at an index given whole. -/
theorem product_apply (x0 : Vec Ideal S512x4096 .bf16) (x1 : Vec Ideal S4096x1024 .bf16) (j : S512x1024.Idx) :
    k0_pay1 (F := Ideal) x0 x1 j = ∑ k : Fin 4096, x0 (ix2 (j 0) k) * x1 (ix2 k (j 1)) :=
  (congrArg (k0_pay1 (F := Ideal) x0 x1) (eq_ix2 j)).trans (product_entry x0 x1 (j 0) (j 1))

variable (V : (c : Dev nD) → (b : Ref sig .tc) → Buf (Elt Ideal) ((c : Thread nD τ).loc b))

/-- The flattened activations and the rotation matrix as the region finds them. -/
abbrev acts (c : Dev nD) : Vec Ideal S8192x4096 .bf16 := V c main_v1
abbrev rotm (c : Dev nD) : Vec Ideal S4096x4096 .bf16 := V c main_v2

theorem origin : (![0, 0] : Fin 2 → Nat) = fun _ => 0 := funext fun a => by fin_cases a <;> rfl

/-- The block indices over the grid: the activations' block follows the output's row block and is the whole feature
    axis, the matrix's block is the whole row axis and follows the output's column block; the output's block indices
    range over 16 x 4. -/
theorem block_indices : ∀ t : Fin cfg0.N,
    win0_0.index t (0 : Fin 2) = win0_2.index t (0 : Fin 2) ∧ win0_0.index t (1 : Fin 2) = 0
    ∧ win0_1.index t (0 : Fin 2) = 0 ∧ win0_1.index t (1 : Fin 2) = win0_2.index t (1 : Fin 2)
    ∧ win0_2.index t (0 : Fin 2) ≤ 15 ∧ win0_2.index t (1 : Fin 2) ≤ 3 :=
  (by decide +kernel : ∀ t : Fin grid0.N, _)

/-- Every one of the 16 x 4 output blocks is some grid point's. -/
theorem block_onto : ∀ (a : Fin 16) (b : Fin 4), ∃ t : Fin cfg0.N, win0_2.index t = ![a.val, b.val] :=
  (by decide +kernel : ∀ (a : Fin 16) (b : Fin 4), ∃ t : Fin grid0.N, win0_2.index t = ![a.val, b.val])

/-- What point t writes back is block t of `rotated` of the two input arrays. -/
theorem flushed_eq (c : Dev nD) (t : Fin cfg0.N) :
    (dat0 V c).flushed 2 t = ((cfg0.win 2).blk t).view.read (Elt Ideal) (rotated (acts V c) (rotm V c)) := by
  show (cfg0.win 2).cut (grid0.coords t) ((dat0 V c).after 2 t) = _
  rw [after0_2]
  unfold out0_2
  rw [View.canon_unit_zero origin]
  simp only [View.ld_unit_zero (S := S512x4096) origin, View.ld_unit_zero (S := S4096x1024) origin]
  obtain ⟨e0, e1, e2, e3, e4, e5⟩ := block_indices t
  funext j
  show k0_pay1 (F := Ideal) (iblk0 V c 0 t) (iblk0 V c 1 t) j = rotated (acts V c) (rotm V c) (((cfg0.win 2).blk t).view.emb j)
  rw [product_apply]
  refine Finset.sum_congr rfl fun k _ => ?_
  show acts V c (((cfg0.win 0).blk t).view.emb (ix2 (j 0) k)) * rotm V c (((cfg0.win 1).blk t).view.emb (ix2 k (j 1)))
    = acts V c (ix2 ((((cfg0.win 2).blk t).view.emb j) 0) k) * rotm V c (ix2 k ((((cfg0.win 2).blk t).view.emb j) 1))
  have hj0 : (j 0).val < 512 := (j 0).isLt
  have hj1 : (j 1).val < 1024 := (j 1).isLt
  have hk : k.val < 4096 := k.isLt
  have h0 : ((cfg0.win 0).blk t).view.emb (ix2 (j 0) k) = ix2 ((((cfg0.win 2).blk t).view.emb j) 0) k := by
    funext a; apply Fin.ext
    match a with
    | ⟨0, _⟩ => show win0_0.index t (0 : Fin 2) * 512 + 1 * (j 0).val = win0_2.index t (0 : Fin 2) * 512 + 1 * (j 0).val; omega
    | ⟨1, _⟩ => show win0_0.index t (1 : Fin 2) * 4096 + 1 * k.val = k.val; omega
  have h1 : ((cfg0.win 1).blk t).view.emb (ix2 k (j 1)) = ix2 k ((((cfg0.win 2).blk t).view.emb j) 1) := by
    funext a; apply Fin.ext
    match a with
    | ⟨0, _⟩ => show win0_1.index t (0 : Fin 2) * 4096 + 1 * k.val = k.val; omega
    | ⟨1, _⟩ => show win0_1.index t (1 : Fin 2) * 1024 + 1 * (j 1).val = win0_2.index t (1 : Fin 2) * 1024 + 1 * (j 1).val; omega
  rw [h0, h1]
  rfl

/-- An index of the output is in point t's block iff each coordinate is in the block's range on its axis. -/
theorem mem_block (t : Fin cfg0.N) (i : S8192x4096.Idx) :
    i ∈ ((cfg0.win 2).blk t).view.set ↔ ∀ a : Fin 2, win0_2.index t a * S512x1024.size a ≤ (i a).val
      ∧ (i a).val < win0_2.index t a * S512x1024.size a + S512x1024.size a := by
  show i ∈ ((View.whole main_v5).slice (win0_2.rect t)).set ↔ _
  rw [View.set_slice_whole, Rect.mem_set_unit]
  exact Iff.rfl

/-- The output blocks tile the output: the index (r, e) is in block (r / 512, e / 1024). -/
theorem covered (i : S8192x4096.Idx) : ∃ t : Fin cfg0.N, (cfg0.win 2).flush t = true ∧ i ∈ ((cfg0.win 2).blk t).view.set := by
  have hi0 : (i 0).val < 8192 := (i 0).isLt
  have hi1 : (i 1).val < 4096 := (i 1).isLt
  obtain ⟨t, ht⟩ := block_onto ⟨(i 0).val / 512, by omega⟩ ⟨(i 1).val / 1024, by omega⟩
  have q0 : win0_2.index t (0 : Fin 2) = (i 0).val / 512 := congrFun ht 0
  have q1 : win0_2.index t (1 : Fin 2) = (i 1).val / 1024 := congrFun ht 1
  refine ⟨t, flush0_2 t, ?_⟩
  rw [mem_block]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 1024 ≤ (i 1).val ∧ (i 1).val < win0_2.index t (1 : Fin 2) * 1024 + 1024; omega

/-- After the region the output array is `rotated` of the input arrays as the region found them. -/
theorem final (c : Dev nD) : (dat0 V c).arrAt 2 cfg0.N = rotated (acts V c) (rotm V c) :=
  (dat0 V c).arrAt_eq_of_cover 2 (rotated (acts V c) (rotm V c)) (fun t _ => flushed_eq V c t) covered

end Cert.KernelIdeal.RotRegion

end
-- ==== Proof.LibMatmulTransposedRhs.lean ====
/-
  A matrix product A · Bᵀ — a left operand [M, K] against a right operand stored [N, K], both contracted on their last
  axis, no batch axes (`DotDims.transposedRhs M K N`) — into the zero accumulator, read at an entry over the extended
  reals: entry (r, c) is the sum over k of a (r, k) · b (c, k). The left operand is read at the output's row and the
  contraction coordinate, the right one at the output's COLUMN and the contraction coordinate. Stated at any extents,
  with every index written by its coordinates.
-/
import Idealize.ShloMosaic.Lib.ValueIdx
import Idealize.ShloMosaic.PureOps.Ideal.Laws

noncomputable section

namespace Cert.MatmulTransposedRhs

open Idealize.ShloMosaic Idealize.ShloMosaic.ValueIdx

variable {M K N : ℕ}

/-- The left operand's first coordinate is the output's row: its axis 0 is the one kept axis of the left side, and
    the kept left axes come first among the output's. -/
theorem lhs_row (j : (⟨2, ![M, N]⟩ : Shape).Idx) (q : (DotDims.transposedRhs M K N).contr.Idx) :
    ((DotDims.transposedRhs M K N).lhsIdx j q 0).val = (j 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from
      List.mem_singleton.mpr rfl)]
  rfl

/-- The left operand's second coordinate is the contraction coordinate. -/
theorem lhs_col (j : (⟨2, ![M, N]⟩ : Shape).Idx) (q : (DotDims.transposedRhs M K N).contr.Idx) :
    ((DotDims.transposedRhs M K N).lhsIdx j q 1).val = (q ⟨0, Nat.one_pos⟩).val :=
  (DotDims.transposedRhs M K N).lhsIdx_val_of_single rfl j q

/-- The right operand's first coordinate is the output's COLUMN: its axis 0 is the one kept axis of the right side,
    which comes after the left side's kept axis among the output's. -/
theorem rhs_row (j : (⟨2, ![M, N]⟩ : Shape).Idx) (q : (DotDims.transposedRhs M K N).contr.Idx) :
    ((DotDims.transposedRhs M K N).rhsIdx j q 0).val = (j 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from
      List.mem_singleton.mpr rfl)]
  rfl

/-- The right operand's second coordinate is the contraction coordinate. -/
theorem rhs_col (j : (⟨2, ![M, N]⟩ : Shape).Idx) (q : (DotDims.transposedRhs M K N).contr.Idx) :
    ((DotDims.transposedRhs M K N).rhsIdx j q 1).val = (q ⟨0, Nat.one_pos⟩).val :=
  (DotDims.transposedRhs M K N).rhsIdx_val_of_single rfl j q

/-- Entry (r, c) of A · Bᵀ into the zero accumulator is the sum over k of a (r, k) · b (c, k). -/
theorem apply (prec : Option ContractPrecision) {φ₁ φ₂ : FTy} (a : FVec Ideal ⟨2, ![M, K]⟩ φ₁) (b : FVec Ideal ⟨2, ![N, K]⟩ φ₂)
    (r : Fin M) (c : Fin N) :
    FloatOps.matmul (DotDims.transposedRhs M K N) prec a b (constant ⟨2, ![M, N]⟩ .f32 0x00000000#32) (ix2 r c)
      = ∑ k : Fin K, a (ix2 r k) * b (ix2 c k) := by
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 r c) ((contrEquiv1 (DotDims.transposedRhs M K N) K rfl rfl).symm k)
      = ix2 r k :=
    funext fun x => Fin.ext (by
      match x with
      | ⟨0, _⟩ => exact lhs_row _ _
      | ⟨1, _⟩ => exact (lhs_col _ _).trans hk)
  have er : (DotDims.transposedRhs M K N).rhsIdx (ix2 r c) ((contrEquiv1 (DotDims.transposedRhs M K N) K rfl rfl).symm k)
      = ix2 c k :=
    funext fun x => Fin.ext (by
      match x with
      | ⟨0, _⟩ => exact rhs_row _ _
      | ⟨1, _⟩ => exact (rhs_col _ _).trans hk)
  rw [el, er]

end Cert.MatmulTransposedRhs

end
-- ==== Proof.LinRegion.lean ====
/-
  The second kernel region: the projection.

  At grid point t = (a, b) the body multiplies a block of 512 rows of the rotated activations (all 4096 features)
  against a block of 1024 rows of the weight (all 4096 features), both contracted on the feature axis, into the zero
  accumulator, adds the matching 1024 entries of the bias (a one-row block broadcast down the 512 rows), and writes the
  512 x 1024 result back as block (a, b) of the output. Entry (p, q) is the sum over k of the activation entry
  (512 a + p, k) times the weight entry (1024 b + q, k), plus the bias at 1024 b + q: block (a, b) of the whole-array
  function `projected`. The 16 x 4 output blocks tile the 8192 x 4096 output, so after the region the output array is
  `projected` of the three input arrays as the region found them.
-/
import proofs.«172820_j88897233092672_1_alg».proof.Proof.Gen.KernelIdeal.Frame
import proofs.«172820_j88897233092672_1_alg».proof.Proof.Spec
import proofs.«172820_j88897233092672_1_alg».proof.Proof.LibMatmulTransposedRhs
import Idealize.ShloMosaic.Lib.Pipeline.Value

set_option maxRecDepth 16384

noncomputable section

namespace Cert.KernelIdeal.LinRegion

open Cert.KernelIdeal Cert.KernelIdeal.Gen Idealize.ShloMosaic Idealize.ShloMosaic.TcCoe Idealize.ShloMosaic.ValueIdx
open Idealize.SL.Sem Cert.RotateLinear
open Idealize.ShloMosaic.Pipeline (Dat)

/-- The one-row bias block broadcast down the rows, at entry (p, q), is the block's entry (0, q). -/
theorem bias_rows (x2 : Vec Ideal S1x1024 .f32) (h : S1x1024.Broadcasts S512x1024) (p : Fin 512) (q : Fin 1024) :
    broadcastTo S512x1024 x2 h (ix2 p q) = x2 (ix2 0 q) :=
  broadcastTo_apply x2 h (ix2 p q) (ix2 0 q) (fun a => match a with
    | ⟨0, _⟩ => by show (0 : Nat) = if (1 : Nat) = 1 then 0 else p.val; rw [if_pos rfl]
    | ⟨1, _⟩ => by show q.val = if (1024 : Nat) = 1 then 0 else q.val; rw [if_neg (by decide)])

/-- The body's result at entry (p, q): the sum over k of the left block's (p, k) times the right block's (q, k), plus the
    bias block's (0, q). The casts of the blocks to their own shapes are the identity. -/
theorem result_entry (x0 : Vec Ideal S512x4096 .bf16) (x1 : Vec Ideal S1024x4096 .bf16) (x2 : Vec Ideal S1x1024 .f32)
    (p : Fin 512) (q : Fin 1024) :
    k1_pay1 (F := Ideal) x0 x1 x2 (ix2 p q) = (∑ k : Fin 4096, x0 (ix2 p k) * x1 (ix2 q k)) + x2 (ix2 0 q) := by
  unfold k1_pay1
  rw [shapeCast_self, shapeCast_self, shapeCast_self, addf_apply, bias_rows]
  exact congrArg (· + x2 (ix2 0 q)) (Cert.MatmulTransposedRhs.apply none (φ₁ := .bf16) (φ₂ := .bf16) x0 x1 p q)

/-- The same at an index given whole. -/
theorem result_apply (x0 : Vec Ideal S512x4096 .bf16) (x1 : Vec Ideal S1024x4096 .bf16) (x2 : Vec Ideal S1x1024 .f32)
    (j : S512x1024.Idx) :
    k1_pay1 (F := Ideal) x0 x1 x2 j = (∑ k : Fin 4096, x0 (ix2 (j 0) k) * x1 (ix2 (j 1) k)) + x2 (ix2 0 (j 1)) :=
  (congrArg (k1_pay1 (F := Ideal) x0 x1 x2) (eq_ix2 j)).trans (result_entry x0 x1 x2 (j 0) (j 1))

variable (V : (c : Dev nD) → (b : Ref sig .tc) → Buf (Elt Ideal) ((c : Thread nD τ).loc b))

/-- The rotated activations, the weight and the one-row bias as the region finds them. -/
abbrev racts (c : Dev nD) : Vec Ideal S8192x4096 .bf16 := V c main_v5
abbrev wgt (c : Dev nD) : Vec Ideal S4096x4096 .bf16 := V c main_v3
abbrev brow (c : Dev nD) : Vec Ideal S1x4096 .f32 := V c main_v4

theorem origin : (![0, 0] : Fin 2 → Nat) = fun _ => 0 := funext fun a => by fin_cases a <;> rfl

/-- The block indices over the grid: the activations' block follows the output's row block and is the whole feature
    axis; the weight's block follows the output's COLUMN block on its row axis and is the whole feature axis; the bias
    block is the one row and follows the output's column block; the output's block indices range over 16 x 4. -/
theorem block_indices : ∀ t : Fin cfg1.N,
    win1_0.index t (0 : Fin 2) = win1_3.index t (0 : Fin 2) ∧ win1_0.index t (1 : Fin 2) = 0
    ∧ win1_1.index t (0 : Fin 2) = win1_3.index t (1 : Fin 2) ∧ win1_1.index t (1 : Fin 2) = 0
    ∧ win1_2.index t (0 : Fin 2) = 0 ∧ win1_2.index t (1 : Fin 2) = win1_3.index t (1 : Fin 2)
    ∧ win1_3.index t (0 : Fin 2) ≤ 15 ∧ win1_3.index t (1 : Fin 2) ≤ 3 :=
  (by decide +kernel : ∀ t : Fin grid1.N, _)

/-- Every one of the 16 x 4 output blocks is some grid point's. -/
theorem block_onto : ∀ (a : Fin 16) (b : Fin 4), ∃ t : Fin cfg1.N, win1_3.index t = ![a.val, b.val] :=
  (by decide +kernel : ∀ (a : Fin 16) (b : Fin 4), ∃ t : Fin grid1.N, win1_3.index t = ![a.val, b.val])

/-- What point t writes back is block t of `projected` of the three input arrays. -/
theorem flushed_eq (c : Dev nD) (t : Fin cfg1.N) :
    (dat1 V c).flushed 3 t = ((cfg1.win 3).blk t).view.read (Elt Ideal) (projected (racts V c) (wgt V c) (brow V c)) := by
  show (cfg1.win 3).cut (grid1.coords t) ((dat1 V c).after 3 t) = _
  rw [after1_3]
  unfold out1_3
  rw [View.canon_unit_zero origin]
  simp only [View.ld_unit_zero (S := S512x4096) origin, View.ld_unit_zero (S := S1024x4096) origin,
    View.ld_unit_zero (S := S1x1024) origin]
  obtain ⟨e0, e1, e2, e3, e4, e5, e6, e7⟩ := block_indices t
  funext j
  show k1_pay1 (F := Ideal) (iblk1 V c 0 t) (iblk1 V c 1 t) (iblk1 V c 2 t) j
    = projected (racts V c) (wgt V c) (brow V c) (((cfg1.win 3).blk t).view.emb j)
  rw [result_apply]
  have hj0 : (j 0).val < 512 := (j 0).isLt
  have hj1 : (j 1).val < 1024 := (j 1).isLt
  show (∑ k : Fin 4096, racts V c (((cfg1.win 0).blk t).view.emb (ix2 (j 0) k)) * wgt V c (((cfg1.win 1).blk t).view.emb (ix2 (j 1) k)))
      + brow V c (((cfg1.win 2).blk t).view.emb (ix2 0 (j 1)))
    = (∑ k : Fin 4096, racts V c (ix2 ((((cfg1.win 3).blk t).view.emb j) 0) k) * wgt V c (ix2 ((((cfg1.win 3).blk t).view.emb j) 1) k))
      + brow V c (ix2 0 ((((cfg1.win 3).blk t).view.emb j) 1))
  have h2 : ((cfg1.win 2).blk t).view.emb (ix2 0 (j 1)) = ix2 0 ((((cfg1.win 3).blk t).view.emb j) 1) := by
    funext a; apply Fin.ext
    match a with
    | ⟨0, _⟩ => show win1_2.index t (0 : Fin 2) * 1 + 1 * 0 = 0; omega
    | ⟨1, _⟩ => show win1_2.index t (1 : Fin 2) * 1024 + 1 * (j 1).val = win1_3.index t (1 : Fin 2) * 1024 + 1 * (j 1).val; omega
  rw [h2]
  refine congrArg (· + brow V c (ix2 0 ((((cfg1.win 3).blk t).view.emb j) 1))) (Finset.sum_congr rfl fun k _ => ?_)
  have hk : k.val < 4096 := k.isLt
  have h0 : ((cfg1.win 0).blk t).view.emb (ix2 (j 0) k) = ix2 ((((cfg1.win 3).blk t).view.emb j) 0) k := by
    funext a; apply Fin.ext
    match a with
    | ⟨0, _⟩ => show win1_0.index t (0 : Fin 2) * 512 + 1 * (j 0).val = win1_3.index t (0 : Fin 2) * 512 + 1 * (j 0).val; omega
    | ⟨1, _⟩ => show win1_0.index t (1 : Fin 2) * 4096 + 1 * k.val = k.val; omega
  have h1 : ((cfg1.win 1).blk t).view.emb (ix2 (j 1) k) = ix2 ((((cfg1.win 3).blk t).view.emb j) 1) k := by
    funext a; apply Fin.ext
    match a with
    | ⟨0, _⟩ => show win1_1.index t (0 : Fin 2) * 1024 + 1 * (j 1).val = win1_3.index t (1 : Fin 2) * 1024 + 1 * (j 1).val; omega
    | ⟨1, _⟩ => show win1_1.index t (1 : Fin 2) * 4096 + 1 * k.val = k.val; omega
  rw [h0, h1]
  rfl

/-- An index of the output is in point t's block iff each coordinate is in the block's range on its axis. -/
theorem mem_block (t : Fin cfg1.N) (i : S8192x4096.Idx) :
    i ∈ ((cfg1.win 3).blk t).view.set ↔ ∀ a : Fin 2, win1_3.index t a * S512x1024.size a ≤ (i a).val
      ∧ (i a).val < win1_3.index t a * S512x1024.size a + S512x1024.size a := by
  show i ∈ ((View.whole main_v6).slice (win1_3.rect t)).set ↔ _
  rw [View.set_slice_whole, Rect.mem_set_unit]
  exact Iff.rfl

/-- The output blocks tile the output: the index (r, o) is in block (r / 512, o / 1024). -/
theorem covered (i : S8192x4096.Idx) : ∃ t : Fin cfg1.N, (cfg1.win 3).flush t = true ∧ i ∈ ((cfg1.win 3).blk t).view.set := by
  have hi0 : (i 0).val < 8192 := (i 0).isLt
  have hi1 : (i 1).val < 4096 := (i 1).isLt
  obtain ⟨t, ht⟩ := block_onto ⟨(i 0).val / 512, by omega⟩ ⟨(i 1).val / 1024, by omega⟩
  have q0 : win1_3.index t (0 : Fin 2) = (i 0).val / 512 := congrFun ht 0
  have q1 : win1_3.index t (1 : Fin 2) = (i 1).val / 1024 := congrFun ht 1
  refine ⟨t, flush1_3 t, ?_⟩
  rw [mem_block]
  intro a
  match a with
  | ⟨0, _⟩ => show win1_3.index t (0 : Fin 2) * 512 ≤ (i 0).val ∧ (i 0).val < win1_3.index t (0 : Fin 2) * 512 + 512; omega
  | ⟨1, _⟩ => show win1_3.index t (1 : Fin 2) * 1024 ≤ (i 1).val ∧ (i 1).val < win1_3.index t (1 : Fin 2) * 1024 + 1024; omega

/-- After the region the output array is `projected` of the input arrays as the region found them. -/
theorem final (c : Dev nD) : (dat1 V c).arrAt 3 cfg1.N = projected (racts V c) (wgt V c) (brow V c) :=
  (dat1 V c).arrAt_eq_of_cover 3 (projected (racts V c) (wgt V c) (brow V c)) (fun t _ => flushed_eq V c t) covered

end Cert.KernelIdeal.LinRegion

end
-- ==== Proof.KernelValue.lean ====
/-
  The kernel program's result, read off the fold of its four segments.

  Before the first region the host flattens the activations to 8192 rows and the bias to one row, and changes the float
  format of the activations, the rotation matrix and the weight (the identity over the extended reals). The first region
  leaves `rotated` of the flattened activations and the rotation matrix in its output; the second reads that output, the
  weight and the one-row bias, neither of which the first region touches, and leaves `projected` of them; the host then
  unflattens the 8192 rows to batch by position. Composed, the result buffer holds `rotateLinear` of the four arguments.
-/
import proofs.«172820_j88897233092672_1_alg».proof.Proof.Gen.KernelIdeal.Frame
import proofs.«172820_j88897233092672_1_alg».proof.Proof.RotRegion
import proofs.«172820_j88897233092672_1_alg».proof.Proof.LinRegion
import proofs.«172820_j88897233092672_1_alg».proof.Proof.Spec
import Idealize.ShloMosaic.Lib.StableHlo.Run

set_option maxRecDepth 16384

noncomputable section

namespace Cert.KernelIdeal.Fold

open Cert.KernelIdeal Cert.KernelIdeal.Gen Idealize.ShloMosaic Idealize.ShloMosaic.TcCoe Idealize.SL.Sem Cert.RotateLinear
open Idealize.ShloMosaic.StableHlo

variable (m : (ℓ : Loc nD τ sig) → Buf (Elt Ideal) ℓ) (ρ : Dev nD → PrngReg)

/-- The four arguments as launched: activations, weight, bias, rotation matrix. -/
abbrev argX (c : Dev nD) : S4x2048x4096.Idx → EReal := m ((c : Thread nD τ).loc main_arg0)
abbrev argW (c : Dev nD) : S4096x4096.Idx → EReal := m ((c : Thread nD τ).loc main_arg1)
abbrev argB (c : Dev nD) : S4096.Idx → EReal := m ((c : Thread nD τ).loc main_arg2)
abbrev argH (c : Dev nD) : S4096x4096.Idx → EReal := m ((c : Thread nD τ).loc main_arg3)

/-- At the first region's entry the activations' array is the argument flattened to 8192 rows. -/
theorem entry_acts (c : Dev nD) :
    (V1 m ρ c main_v1 : S8192x4096.Idx → EReal) = shapeCast S8192x4096 (argX m c) := by
  show StableHlo.after hostOps0 (W0 m ρ c) (Proc.devRef .tc main_v1) = _
  after_results
  rfl

/-- The rotation matrix's array is the argument. -/
theorem entry_rotm (c : Dev nD) : (V1 m ρ c main_v2 : S4096x4096.Idx → EReal) = argH m c := by
  show StableHlo.after hostOps0 (W0 m ρ c) (Proc.devRef .tc main_v2) = _
  after_results
  rfl

/-- The weight's array is the argument. -/
theorem entry_wgt (c : Dev nD) : (V1 m ρ c main_v3 : S4096x4096.Idx → EReal) = argW m c := by
  show StableHlo.after hostOps0 (W0 m ρ c) (Proc.devRef .tc main_v3) = _
  after_results
  rfl

/-- The bias's array is the argument as one row. -/
theorem entry_bias (c : Dev nD) :
    (V1 m ρ c main_v4 : S1x4096.Idx → EReal) = shapeCast S1x4096 (argB m c) := by
  show StableHlo.after hostOps0 (W0 m ρ c) (Proc.devRef .tc main_v4) = _
  after_results
  rfl

/-- After the first region its output holds the rotation of the flattened activations. -/
theorem rotated_out (c : Dev nD) :
    (V2 m ρ c main_v5 : S8192x4096.Idx → EReal)
      = rotated (shapeCast S8192x4096 (argX m c)) (argH m c) := by
  refine ((W2_arr m ρ c 2).trans (RotRegion.final (V1 m ρ) c)).trans ?_
  show rotated (V1 m ρ c main_v1) (V1 m ρ c main_v2) = _
  rw [entry_acts, entry_rotm]

/-- The first region leaves the weight and the one-row bias as it found them. -/
theorem kept_wgt (c : Dev nD) : (V2 m ρ c main_v3 : S4096x4096.Idx → EReal) = argW m c :=
  (W2_of_ne m ρ c main_v3 (by decide)).trans (entry_wgt m ρ c)
theorem kept_bias (c : Dev nD) :
    (V2 m ρ c main_v4 : S1x4096.Idx → EReal) = shapeCast S1x4096 (argB m c) :=
  (W2_of_ne m ρ c main_v4 (by decide)).trans (entry_bias m ρ c)

/-- After the second region its output holds the projection of the rotated activations. -/
theorem projected_out (c : Dev nD) :
    (W3 m ρ c (Proc.devRef .tc main_v6) : S8192x4096.Idx → EReal)
      = projected (rotated (shapeCast S8192x4096 (argX m c)) (argH m c))
          (argW m c) (shapeCast S1x4096 (argB m c)) := by
  refine ((W3_arr m ρ c 3).trans (LinRegion.final (V2 m ρ) c)).trans ?_
  show projected (V2 m ρ c main_v5) (V2 m ρ c main_v3) (V2 m ρ c main_v4) = _
  rw [rotated_out, kept_wgt, kept_bias]

/-- The result buffer at the last boundary is the layer's formula of the four arguments. -/
theorem result_eq (c : Dev nD) :
    (W4 m ρ c (Proc.devRef .tc main_v7) : S4x2048x4096.Idx → EReal)
      = rotateLinear (argX m c) (argW m c)
          (argH m c) (argB m c) := by
  have h7 : (W4 m ρ c (Proc.devRef .tc main_v7) : S4x2048x4096.Idx → EReal)
      = shapeCast S4x2048x4096 (W3 m ρ c (Proc.devRef .tc main_v6) : S8192x4096.Idx → EReal) := by
    show StableHlo.after hostOps2 (W3 m ρ c) (Proc.devRef .tc main_v7) = _
    after_results
    rfl
  rw [h7, projected_out]
  exact unflatten_projected_rotated _ _ _ _ _ _ _

end Cert.KernelIdeal.Fold

end
-- ==== Proof.Reference.lean ====
/-
  The reference computes the layer's formula.

  The reference contracts the activations with the rotation matrix over the feature axis (entry (p, s, e) is the sum
  over d of x (p, s, d) * h (d, e)), contracts the result with the weight over that same axis against the weight's
  second axis (entry (p, s, o) is the sum over e of the rotated entry (p, s, e) times w (o, e)), and adds the bias
  broadcast along batch and position. Read at an index this is `rotateLinear` term for term: only the index functions of
  the two contractions and of the two broadcasts have to be named by their coordinates.
-/
import proofs.«172820_j88897233092672_1_alg».proof.Proof.Gen.ReferenceIdeal.Read
import proofs.«172820_j88897233092672_1_alg».proof.Proof.Spec

noncomputable section

namespace Cert.ReferenceIdeal.RefValue

open Idealize.ShloMosaic Idealize.ShloMosaic.ValueIdx Cert.ReferenceIdeal Cert.ReferenceIdeal.Read Cert.RotateLinear

/-- The rotation's left operand index at output (p, s, e) and contraction coordinate d is (p, s, d); the left operand of
    the second contraction is read at (p, s, e), so the composed index is (p, s, d) too. -/
theorem lidx_rot (i : S4x2048x4096.Idx) (e d : Fin 4096) : lidx_main_v0 (lidx_main_v1 i e) d = ix3 (i 0) (i 1) d :=
  funext fun a => Fin.ext (by match a with | ⟨0, _⟩ => rfl | ⟨1, _⟩ => rfl | ⟨2, _⟩ => rfl)

/-- The rotation matrix is read at (d, e). -/
theorem ridx_rot (i : S4x2048x4096.Idx) (e d : Fin 4096) : ridx_main_v0 (lidx_main_v1 i e) d = ix2 d e :=
  funext fun a => Fin.ext (by match a with | ⟨0, _⟩ => rfl | ⟨1, _⟩ => rfl)

/-- The weight is read at (o, e). -/
theorem ridx_lin (i : S4x2048x4096.Idx) (e : Fin 4096) : ridx_main_v1 i e = ix2 (i 2) e :=
  funext fun a => Fin.ext (by match a with | ⟨0, _⟩ => rfl | ⟨1, _⟩ => rfl)

/-- The bias is read at o. -/
theorem idx_bias (i : S4x2048x4096.Idx) : idx_main_v2 (idx_main_v3 i) = ix1 (i 2) :=
  funext fun a => Fin.ext (by match a with | ⟨0, _⟩ => rfl)

/-- The reference's result is the layer's formula of its four arguments. -/
theorem reference_eq (x0 : (⟨S4x2048x4096, .f32⟩ : BufTy).Contents (Elt Ideal)) (x1 : (⟨S4096x4096, .f32⟩ : BufTy).Contents (Elt Ideal))
    (x2 : (⟨S4096, .f32⟩ : BufTy).Contents (Elt Ideal)) (x3 : (⟨S4096x4096, .f32⟩ : BufTy).Contents (Elt Ideal)) :
    val_main_v4 (F := Ideal) x0 x1 x2 x3 = rotateLinear x0 x1 x3 x2 := by
  funext i
  rw [val_main_v4_apply, val_main_v1_apply, val_main_v3_apply, val_main_v2_apply]
  simp only [val_main_v0_apply, lidx_rot, ridx_rot, ridx_lin, idx_bias]
  rfl

end Cert.ReferenceIdeal.RefValue

end
-- ==== Proof.lean ====
/-
  A rotated linear layer: out = (x · h) · wᵀ + b over activations x [4, 2048, 4096], a rotation matrix h [4096, 4096], a
  weight w [4096, 4096] and a bias b [4096].

  The kernel program flattens the activations to 8192 rows and runs two tiled matrix products, each on a 16 x 4 grid of
  512 x 1024 output blocks with the whole contraction axis in every block: first the rotation x · h, then the
  projection against w's rows plus the bias; the reference contracts the unflattened activations with h and the result
  with w, and adds the broadcast bias. Over the extended reals a change of float format is the identity and both
  products are plain sums, so both programs compute, entry by entry,

      out (p, s, o) = (sum over e of (sum over d of x (p, s, d) * h (d, e)) * w (o, e)) + b (o),

  with the same grouping of the sums and the same order of the factors: no law of arithmetic is needed to join the two
  sides, and the finiteness of the inputs is not used. The three frame claims are the programs' runs with the result
  dropped; the idealization rewrote nothing, so the fourth claim is trivial.
-/
import proofs.«172820_j88897233092672_1_alg».proof.Defs
import proofs.«172820_j88897233092672_1_alg».proof.Proof.Gen.Kernel
import proofs.«172820_j88897233092672_1_alg».proof.Proof.Gen.Kernel.Skeleton
import proofs.«172820_j88897233092672_1_alg».proof.Proof.Gen.Kernel.Launch
import proofs.«172820_j88897233092672_1_alg».proof.Proof.Gen.Kernel.Points
import proofs.«172820_j88897233092672_1_alg».proof.Proof.Gen.Kernel.Frame
import proofs.«172820_j88897233092672_1_alg».proof.Proof.Gen.KernelIdeal
import proofs.«172820_j88897233092672_1_alg».proof.Proof.Gen.KernelIdeal.Skeleton
import proofs.«172820_j88897233092672_1_alg».proof.Proof.Gen.KernelIdeal.Launch
import proofs.«172820_j88897233092672_1_alg».proof.Proof.Gen.KernelIdeal.Points
import proofs.«172820_j88897233092672_1_alg».proof.Proof.Gen.KernelIdeal.Frame
import proofs.«172820_j88897233092672_1_alg».proof.Proof.Gen.ReferenceIdeal
import proofs.«172820_j88897233092672_1_alg».proof.Proof.Gen.ReferenceIdeal.Run
import proofs.«172820_j88897233092672_1_alg».proof.Proof.Gen.ReferenceIdeal.Read
import proofs.«172820_j88897233092672_1_alg».proof.Proof.Gen.Pre_finite_inputs
import proofs.«172820_j88897233092672_1_alg».proof.Proof.KernelRun
import proofs.«172820_j88897233092672_1_alg».proof.Proof.KernelValue
import proofs.«172820_j88897233092672_1_alg».proof.Proof.Reference
import Idealize.ShloMosaic.Adequacy
import Idealize.ShloMosaic.Init

noncomputable section

namespace Cert.Proof

open Idealize.ShloMosaic Idealize.ShloMosaic.TcCoe Idealize.SL.Sem

/-- The word-level kernel program runs and keeps its arguments. -/
theorem frame_kernel : Cert.frame_Kernel := fun m ρ _ => Cert.Kernel.Gen.frame m ρ

/-- So does the kernel program read over the extended reals. -/
theorem frame_kernel_ideal : Cert.frame_KernelIdeal := fun m ρ _ => Cert.KernelIdeal.Gen.frame m ρ

/-- The reference's run with its result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both programs, from memories agreeing on the arguments, end with the layer's formula of those arguments in their
    result buffers: the kernel program by the fold of its segments, the reference by its operations read at an index. -/
theorem algebraic : Cert.algebraic_KernelIdeal_ReferenceIdeal := by
  intro m ρ m' ρ' _ hagree
  refine ⟨fun c => Cert.RotateLinear.rotateLinear
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg2)), ?_, ?_⟩
  · exact (θ_run Cert.KernelIdeal.defs _ _).mono
      (fun r h c => ⟨(h c).1.trans (Cert.KernelIdeal.Fold.result_eq m ρ c), (h c).2⟩)
      (Cert.KernelIdeal.Launched.run (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v4_eq, Cert.ReferenceIdeal.RefValue.reference_eq,
      (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
